-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x64 : Shape := ⟨2, ![4194304, 64]⟩
abbrev S64x1 : Shape := ⟨2, ![64, 1]⟩
abbrev S1 : Shape := ⟨1, ![1]⟩
abbrev S4194304 : Shape := ⟨1, ![4194304]⟩
abbrev S_ : Shape := ⟨0, ![]⟩

class Facts : Prop where
  bcast_S_S4194304x64 : S_.BroadcastsInDim S4194304x64 (![] : Fin 0 → Fin S4194304x64.rank)
  reducesTo_S4194304x64_S_d0_1 : S4194304x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4194304x64 .f32) (main_arg1 : FVec F S64x1 .f32) (main_arg2 : FVec F S1 .f32) (main_arg3 : IVec S4194304 32) : IVec S_ 1 :=
  let main_v0 : FVec F S4194304x64 .f32 := Host.absf main_arg0
  let main_cst : FVec F S_ .f32 := constant S_ .f32 0x7F800000#32
  let main_v1 : FVec F S4194304x64 .f32 := broadcastInDim S4194304x64 ![] bcast_S_S4194304x64 main_cst
  let main_v2 : IVec S4194304x64 1 := cmpf .olt main_v0 main_v1
  let main_c : IVec S_ 1 := constantI S_ 1 1#1
  let main_v3 : IVec S_ 1 := (fun x v => Host.reduce IntOp.andi x v reducesTo_S4194304x64_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4194304x64 : Shape := ⟨2, ![4194304, 64]⟩
abbrev S64x1 : Shape := ⟨2, ![64, 1]⟩
abbrev S1 : Shape := ⟨1, ![1]⟩
abbrev S4194304 : Shape := ⟨1, ![4194304]⟩
abbrev S1x1 : Shape := ⟨2, ![1, 1]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S262144 : Shape := ⟨1, ![262144]⟩
abbrev S4194304x1 : Shape := ⟨2, ![4194304, 1]⟩

abbrev nBuf : Space → Nat
  | .hbm => 21
  | .vmem => 12
  | .smem => 0
  | _ => 0

abbrev bufTy : (tb : Table) → Fin (tcTables nBuf tb) → BufTy
  | .hbm, ⟨0, _⟩ => ⟨S4194304x64, .f32⟩
  | .hbm, ⟨1, _⟩ => ⟨S64x1, .f32⟩
  | .hbm, ⟨2, _⟩ => ⟨S1, .f32⟩
  | .hbm, ⟨3, _⟩ => ⟨S4194304, .i32⟩
  | .hbm, ⟨4, _⟩ => ⟨S1x1, .f32⟩
  | .hbm, ⟨5, _⟩ => ⟨S4194304, .f32⟩
  | .hbm, ⟨6, _⟩ => ⟨S_, .f32⟩
  | .hbm, ⟨7, _⟩ => ⟨S262144, .f32⟩
  | .hbm, ⟨8, _⟩ => ⟨S4194304x1, .i32⟩
  | .hbm, ⟨9, _⟩ => ⟨S262144, .f32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S4194304, .f32⟩
  | .hbm, ⟨19, _⟩ => ⟨S4194304, .f32⟩
  | .hbm, ⟨20, _⟩ => ⟨S4194304x1, .f32⟩
  | .local _ .vmem, ⟨0, _⟩ => ⟨S8192x64, .f32⟩
  | .local _ .vmem, ⟨1, _⟩ => ⟨S8192x64, .f32⟩
  | .local _ .vmem, ⟨2, _⟩ => ⟨S64x1, .f32⟩
  | .local _ .vmem, ⟨3, _⟩ => ⟨S1x1, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | .local _ .vmem, ⟨9, _⟩ => ⟨S8192, .f32⟩
  | .local _ .vmem, ⟨10, _⟩ => ⟨S8192, .f32⟩
  | .local _ .vmem, ⟨11, _⟩ => ⟨S8192, .f32⟩
  | _, _ => ⟨S4194304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x1_S8192 : S8192x1.ShapeCasts S8192
  inb_S8192_S8192_0 : ∀ a, (![0] : Fin 1 → Nat) a + S8192.size a ≤ S8192.size a
  h_S8192 : 0 < S8192.numel
  bcast_S_S262144 : S_.BroadcastsInDim S262144 (![] : Fin 0 → Fin S262144.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  shapeCasts_S8192_S8192 : S8192.ShapeCasts S8192
  dot_S8192x64_S64x1_S8192x1_1_0_0_1_n_n_wf : DotDims.WF S8192x64 S64x1 S8192x1 [1] [0] [0] [1] [] []
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S4194304x64.size a
  hwx0_0 : ∀ i : grid0.Coords, EltTy.bits .f32 = 32 ∨ (Rect.block (s := S4194304x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S4194304.size a
  hwx0_3 : ∀ i : grid0.Coords, EltTy.bits .f32 = 32 ∨ (Rect.block (s := S4194304) S8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S4194304.size a
  hwx1_0 : ∀ i : grid1.Coords, EltTy.bits .f32 = 32 ∨ (Rect.block (s := S4194304) S8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S4194304.size a
  hwx1_1 : ∀ i : grid1.Coords, EltTy.bits .f32 = 32 ∨ (Rect.block (s := S4194304) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S4194304.size a
  hwx1_2 : ∀ i : grid1.Coords, EltTy.bits .f32 = 32 ∨ (Rect.block (s := S4194304) S8192.size (cc1_transform_2 i) (hinb1_2 i)).WholeWords (EltTy.packing .f32)

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4194304x64 : Shape := ⟨2, ![4194304, 64]⟩
abbrev S64x1 : Shape := ⟨2, ![64, 1]⟩
abbrev S1 : Shape := ⟨1, ![1]⟩
abbrev S4194304 : Shape := ⟨1, ![4194304]⟩
abbrev S4194304x1 : Shape := ⟨2, ![4194304, 1]⟩
abbrev S1x1 : Shape := ⟨2, ![1, 1]⟩
abbrev S_ : Shape := ⟨0, ![]⟩
abbrev S262144 : Shape := ⟨1, ![262144]⟩

abbrev nBuf : Space → Nat
  | .hbm => 25
  | .vmem => 0
  | .smem => 0
  | _ => 0

abbrev bufTy : (tb : Table) → Fin (tcTables nBuf tb) → BufTy
  | .hbm, ⟨0, _⟩ => ⟨S4194304x64, .f32⟩
  | .hbm, ⟨1, _⟩ => ⟨S64x1, .f32⟩
  | .hbm, ⟨2, _⟩ => ⟨S1, .f32⟩
  | .hbm, ⟨3, _⟩ => ⟨S4194304, .i32⟩
  | .hbm, ⟨4, _⟩ => ⟨S4194304x1, .f32⟩
  | .hbm, ⟨5, _⟩ => ⟨S1x1, .f32⟩
  | .hbm, ⟨6, _⟩ => ⟨S4194304x1, .f32⟩
  | .hbm, ⟨7, _⟩ => ⟨S4194304x1, .f32⟩
  | .hbm, ⟨8, _⟩ => ⟨S4194304x1, .f32⟩
  | .hbm, ⟨9, _⟩ => ⟨S4194304, .f32⟩
  | .hbm, ⟨10, _⟩ => ⟨S_, .f32⟩
  | .hbm, ⟨11, _⟩ => ⟨S262144, .f32⟩
  | .hbm, ⟨12, _⟩ => ⟨S4194304x1, .i32⟩
  | .hbm, ⟨13, _⟩ => ⟨S262144, .f32⟩
  | .hbm, ⟨14, _⟩ => ⟨S_, .i32⟩
  | .hbm, ⟨15, _⟩ => ⟨S4194304, .i32⟩
  | .hbm, ⟨16, _⟩ => ⟨S4194304, .i1⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304, .i32⟩
  | .hbm, ⟨21, _⟩ => ⟨S4194304x1, .i32⟩
  | .hbm, ⟨22, _⟩ => ⟨S4194304, .f32⟩
  | .hbm, ⟨23, _⟩ => ⟨S4194304x1, .f32⟩
  | .hbm, ⟨24, _⟩ => ⟨S4194304x1, .f32⟩
  | _, _ => ⟨S4194304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S4194304 : S4194304x1.ShapeCasts S4194304
  bcast_S_S262144 : S_.BroadcastsInDim S262144 (![] : Fin 0 → Fin S262144.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  dot_S4194304x64_S64x1_S4194304x1_1_0_0_1_n_n_wf : DotDims.WF S4194304x64 S64x1 S4194304x1 [1] [0] [0] [1] [] []
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]

variable [Facts₀]

def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf

class Facts : Prop extends Facts₀ where

variable [Facts]
-- ==== Proof.Normalize.lean ====
/-
  The second region of the program, read as a value. Each of its 512 grid points fetches block `t` (8192 consecutive
  entries) of two arrays of 4194304 entries — the per-row exponentials and, for each row, the total of its stratum —
  and writes back block `t` of their entrywise quotient. The three windows move together (block index `t` on the one
  axis) and the 512 blocks tile the 4194304 entries, so when the region ends its output array is the entrywise
  quotient of the two arrays as the region found them.
-/
import proofs.«427394_j32366873542997_3_alg».proof.Proof.Gen.KernelIdeal.Frame
import Idealize.ShloMosaic.Lib.Pipeline.Value

set_option maxRecDepth 16384

noncomputable section

namespace Cert.KernelIdeal.Normalize

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The one-axis offset of the body's whole-block accesses is zero. -/
theorem zero_off : (![0] : Fin 1 → Nat) = fun _ => 0 := funext fun a => by fin_cases a; rfl

/-- The entrywise quotient of two arrays of 4194304 entries. -/
abbrev quotient (y g : S4194304.Idx → Elt F .f32) : S4194304.Idx → Elt F .f32 := fun i => FloatOps.divf (y i) (g i)

/-- The body's one stored value is the entrywise quotient of its two loaded blocks (the two shape casts are to the
    same shape). -/
theorem payload_eq (x0 x1 : Vec F S8192 .f32) : k1_pay1 x0 x1 = divf x0 x1 := by
  unfold k1_pay1
  simp only [shapeCast_self]

/-- At every grid point the three windows sit on the same block, the point's own number. -/
theorem same_block : ∀ t : Fin cfg1.N, win1_0.index t (0 : Fin 1) = win1_2.index t (0 : Fin 1)
    ∧ win1_1.index t (0 : Fin 1) = win1_2.index t (0 : Fin 1)
    ∧ win1_2.index t (0 : Fin 1) = t.val :=
  (by decide +kernel : ∀ t : Fin grid1.N, _)

/-- What point `t` writes back is block `t` of the quotient of the two arrays as the region finds them. -/
theorem block_written (c : Dev nD) (t : Fin cfg1.N) :
    (dat1 V c).flushed 2 t = ((cfg1.win 2).blk t).view.read (Elt F) (quotient (V c main_v1) (V c main_v11)) := by
  show (cfg1.win 2).cut (grid1.coords t) ((dat1 V c).after 2 t) = _
  rw [after1_2]
  unfold out1_2
  rw [View.canon_unit_zero zero_off]
  simp only [View.ld_unit_zero (S := S8192) zero_off]
  rw [payload_eq]
  obtain ⟨e0, e1, e2⟩ := same_block t
  funext j
  show FloatOps.divf (V c main_v1 (((cfg1.win 0).blk t).view.emb j)) (V c main_v11 (((cfg1.win 1).blk t).view.emb j)) = FloatOps.divf (V c main_v1 (((cfg1.win 2).blk t).view.emb j)) (V c main_v11 (((cfg1.win 2).blk t).view.emb j))
  have h0 : ((cfg1.win 0).blk t).view.emb j = ((cfg1.win 2).blk t).view.emb j := by
    funext a; apply Fin.ext
    match a with
    | ⟨0, _⟩ => show win1_0.index t (0 : Fin 1) * 8192 + 1 * (j 0).val = win1_2.index t (0 : Fin 1) * 8192 + 1 * (j 0).val; omega
  have h1 : ((cfg1.win 1).blk t).view.emb j = ((cfg1.win 2).blk t).view.emb j := by
    funext a; apply Fin.ext
    match a with
    | ⟨0, _⟩ => show win1_1.index t (0 : Fin 1) * 8192 + 1 * (j 0).val = win1_2.index t (0 : Fin 1) * 8192 + 1 * (j 0).val; omega
  rw [h0, h1]

/-- An entry lies in point `t`'s output block iff its position is among the block's 8192. -/
theorem mem_block (t : Fin cfg1.N) (i : S4194304.Idx) :
    i ∈ ((cfg1.win 2).blk t).view.set ↔ ∀ a : Fin 1, win1_2.index t a * S8192.size a ≤ (i a).val ∧ (i a).val < win1_2.index t a * S8192.size a + S8192.size a := by
  show i ∈ ((View.whole main_v12).slice (win1_2.rect t)).set ↔ _
  rw [View.set_slice_whole, Rect.mem_set_unit]
  exact Iff.rfl

/-- Every entry is in the block of the point numbered by its position divided by 8192. -/
theorem covered (i : S4194304.Idx) : ∃ t : Fin cfg1.N, (cfg1.win 2).flush t = true ∧ i ∈ ((cfg1.win 2).blk t).view.set := by
  have hi : (i 0).val < 4194304 := (i 0).isLt
  have hN : cfg1.N = 512 := N_1
  obtain ⟨t, ht⟩ : ∃ t : Fin cfg1.N, t.val = (i 0).val / 8192 := ⟨⟨(i 0).val / 8192, by omega⟩, rfl⟩
  obtain ⟨-, -, e2⟩ := same_block t
  refine ⟨t, flush1_2 t, ?_⟩
  rw [mem_block]
  intro a
  match a with
  | ⟨0, _⟩ => show win1_2.index t (0 : Fin 1) * 8192 ≤ (i 0).val ∧ (i 0).val < win1_2.index t (0 : Fin 1) * 8192 + 8192; omega

/-- The region's output array when it ends: the entrywise quotient of the two input arrays as entered. -/
theorem array_after (c : Dev nD) : (dat1 V c).arrAt 2 cfg1.N = quotient (V c main_v1) (V c main_v11) :=
  (dat1 V c).arrAt_eq_of_cover 2 _ (fun t _ => block_written V c t) covered

end Cert.KernelIdeal.Normalize

end
-- ==== Proof.LinearExp.lean ====
/-
  The first region of the program, read as a value at the exact (extended-real) instance. At grid point `t` the body
  loads block `t` of `x` (8192 rows of 64 entries), the whole 64×1 weight column and the 1×1 bias, multiplies the
  block by the column into a zero accumulator, adds the bias to every row, exponentiates, and stores the 8192 values
  as block `t` of a one-axis array. A change of float format is the identity here, and a product into a zero accumulator
  is the plain sum over the 64 contracted entries. So row `r` of the output is
      exp (∑ₖ x[r, k] · w[k, 0] + b[0, 0]),
  and since the 512 output blocks tile the 4194304 rows, that is the whole output array when the region ends.
-/
import proofs.«427394_j32366873542997_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LinearExp

open Cert.KernelIdeal Cert.KernelIdeal.Gen
open Idealize.ShloMosaic Idealize.ShloMosaic.TcCoe Idealize.SL.Sem
open Idealize.ShloMosaic.Pipeline (Dat)

/-! ## Indices -/

/-- Entry `(r, k)` of a block of 8192 rows, for the row of a one-column index `i = (r, 0)`. -/
abbrev rowEntry (i : S8192x1.Idx) (k : Fin 64) : S8192x64.Idx := fun a => match a with
  | ⟨0, _⟩ => ⟨(i 0).val, (i 0).isLt⟩
  | ⟨1, _⟩ => ⟨k.val, k.isLt⟩
/-- Entry `(k, c)` of the weight column, for the column of `i = (r, c)`. -/
abbrev colEntry (i : S8192x1.Idx) (k : Fin 64) : S64x1.Idx := fun a => match a with
  | ⟨0, _⟩ => ⟨k.val, k.isLt⟩
  | ⟨1, _⟩ => ⟨(i 1).val, (i 1).isLt⟩
/-- The one-column index `(r, 0)` of position `r` of a block. -/
abbrev asColumn (j : S8192.Idx) : S8192x1.Idx := fun a => match a with
  | ⟨0, _⟩ => ⟨(j 0).val, (j 0).isLt⟩
  | ⟨1, _⟩ => ⟨0, Nat.one_pos⟩
/-- The one index `(0, 0)` of the bias. -/
abbrev origin : S1x1.Idx := fun a => match a with
  | ⟨0, _⟩ => ⟨0, Nat.one_pos⟩
  | ⟨1, _⟩ => ⟨0, Nat.one_pos⟩

/-! ## The product into a zero accumulator, at an index -/

theorem lhs_row (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem lhs_contr (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
theorem rhs_contr (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
theorem rhs_col (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- The block product into a zero accumulator, at `i = (r, c)`: the sum over the 64 contracted entries of row `r` of the
    left factor times column `c` of the right one. -/
theorem product_apply (l : FVec Ideal S8192x64 .bf16) (r : FVec Ideal S64x1 .bf16) (i : S8192x1.Idx) :
    matmul dot_S8192x64_S64x1_S8192x1_1_0_0_1_n_n none l r (constant (F := Ideal) S8192x1 .f32 0x00000000#32) i
      = ∑ k : Fin 64, l (rowEntry i k) * r (colEntry i k) := by
  simp only [matmul]
  rw [Ideal.matmul_constant_zero_apply, ← Equiv.sum_comp (ValueIdx.contrEquiv1 dot_S8192x64_S64x1_S8192x1_1_0_0_1_n_n 64 rfl rfl).symm]
  refine Finset.sum_congr rfl fun k _ => ?_
  have hk := ValueIdx.contrEquiv1_symm_val dot_S8192x64_S64x1_S8192x1_1_0_0_1_n_n 64 rfl rfl k
  have el : dot_S8192x64_S64x1_S8192x1_1_0_0_1_n_n.lhsIdx i ((ValueIdx.contrEquiv1 dot_S8192x64_S64x1_S8192x1_1_0_0_1_n_n 64 rfl rfl).symm k) = rowEntry i k := funext fun a => Fin.ext (by
    match a with
    | ⟨0, _⟩ => exact lhs_row _ _
    | ⟨1, _⟩ => exact (lhs_contr _ _).trans hk)
  have er : dot_S8192x64_S64x1_S8192x1_1_0_0_1_n_n.rhsIdx i ((ValueIdx.contrEquiv1 dot_S8192x64_S64x1_S8192x1_1_0_0_1_n_n 64 rfl rfl).symm k) = colEntry i k := funext fun a => Fin.ext (by
    match a with
    | ⟨0, _⟩ => exact (rhs_contr _ _).trans hk
    | ⟨1, _⟩ => exact rhs_col _ _)
  rw [el, er]

/-! ## The body's stored value, at an index -/

/-- Position `j` of what the body stores: the exponential of the inner product of row `j` of the loaded block with the
    loaded column, plus the loaded bias. -/
theorem payload_apply (x0 : Vec Ideal S8192x64 .f32) (x1 : Vec Ideal S64x1 .f32) (x2 : Vec Ideal S1x1 .f32) (j : S8192.Idx) :
    k0_pay1 (F := Ideal) x0 x1 x2 j
      = Ideal.exp ((∑ k : Fin 64, x0 (rowEntry (asColumn j) k) * x1 (colEntry (asColumn j) k)) + x2 origin) := by
  unfold k0_pay1
  refine (shapeCast_apply _ shapeCasts_S8192x1_S8192 j (asColumn j) ?_).trans ?_
  · rewrite [Shape.rowMajor_val_two, Shape.rowMajor_val_one]
    show (j 0).val * 1 + 0 = (j 0).val
    omega
  · have hb : extractAt ![0, 0] x2 inpos_S1x1_p0_0 = x2 origin :=
      congrArg x2 (funext fun a => Fin.ext (by match a with | ⟨0, _⟩ => rfl | ⟨1, _⟩ => rfl))
    show Ideal.exp (matmul dot_S8192x64_S64x1_S8192x1_1_0_0_1_n_n none (truncf .bf16 x0 bitsLt_bf16_f32) (truncf .bf16 x1 bitsLt_bf16_f32)
        (constant (F := Ideal) S8192x1 .f32 0x00000000#32) (asColumn j) + extractAt ![0, 0] x2 inpos_S1x1_p0_0) = _
    rw [product_apply, hb]
    rfl

/-! ## From blocks to the array -/

variable (V : (c : Dev nD) → (b : Ref sig .tc) → Buf (Elt Ideal) ((c : Thread nD τ).loc b))

/-- Entry `(r, k)` of the whole `x`, for row `r` of the output. -/
abbrev xEntry (i : S4194304.Idx) (k : Fin 64) : S4194304x64.Idx := fun a => match a with
  | ⟨0, _⟩ => ⟨(i 0).val, (i 0).isLt⟩
  | ⟨1, _⟩ => ⟨k.val, k.isLt⟩
/-- Entry `(k, 0)` of the weight column. -/
abbrev wEntry (k : Fin 64) : S64x1.Idx := fun a => match a with
  | ⟨0, _⟩ => ⟨k.val, k.isLt⟩
  | ⟨1, _⟩ => ⟨0, Nat.one_pos⟩

/-- Row by row: the exponential of the row's inner product with the weight column, plus the bias. -/
def rowExp (x : (⟨S4194304x64, .f32⟩ : BufTy).Contents (Elt Ideal)) (w : (⟨S64x1, .f32⟩ : BufTy).Contents (Elt Ideal))
    (b : (⟨S1x1, .f32⟩ : BufTy).Contents (Elt Ideal)) : (⟨S4194304, .f32⟩ : BufTy).Contents (Elt Ideal) :=
  fun i => Ideal.exp ((∑ k : Fin 64, x (xEntry i k) * w (wEntry k)) + b origin)

theorem zero_off1 : (![0] : Fin 1 → Nat) = fun _ => 0 := funext fun a => by fin_cases a; rfl
theorem zero_off2 : (![0, 0] : Fin 2 → Nat) = fun _ => 0 := funext fun a => by fin_cases a <;> rfl

/-- Where the four windows sit at point `t`: the `x` block and the output block at block `t` of their long axis, the
    weight column and the bias at their one block. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- What point `t` writes back is block `t` of `rowExp` of the three arrays as the region finds them. -/
theorem block_written (c : Dev nD) (t : Fin cfg0.N) :
    (dat0 V c).flushed 3 t
      = ((cfg0.win 3).blk t).view.read (Elt Ideal) (rowExp (V c main_arg0) (V c main_arg1) (V c main_v0)) := by
  show (cfg0.win 3).cut (grid0.coords t) ((dat0 V c).after 3 t) = _
  rw [after0_3]
  unfold out0_3
  rw [View.canon_unit_zero zero_off1]
  simp only [View.ld_unit_zero (S := S8192x64) zero_off2, View.ld_unit_zero (S := S64x1) zero_off2, View.ld_unit_zero (S := S1x1) zero_off2]
  obtain ⟨e0, e1, e2, e3, e4, e5, e6⟩ := block_places t
  funext j
  refine (payload_apply _ _ _ j).trans ?_
  have hx : ∀ k : Fin 64, iblk0 V c 0 t (rowEntry (asColumn j) k)
      = V c main_arg0 (xEntry (((cfg0.win 3).blk t).view.emb j) k) := fun k => by
    show V c main_arg0 (((cfg0.win 0).blk t).view.emb (rowEntry (asColumn j) k)) = _
    have h : ((cfg0.win 0).blk t).view.emb (rowEntry (asColumn j) k) = xEntry (((cfg0.win 3).blk t).view.emb j) k := by
      funext a; apply Fin.ext
      match a with
      | ⟨0, _⟩ => show win0_0.index t (0 : Fin 2) * 8192 + 1 * (j 0).val = win0_3.index t (0 : Fin 1) * 8192 + 1 * (j 0).val; omega
      | ⟨1, _⟩ => show win0_0.index t (1 : Fin 2) * 64 + 1 * k.val = k.val; omega
    rw [h]
  have hw : ∀ k : Fin 64, iblk0 V c 1 t (colEntry (asColumn j) k) = V c main_arg1 (wEntry k) := fun k => by
    show V c main_arg1 (((cfg0.win 1).blk t).view.emb (colEntry (asColumn j) k)) = _
    have h : ((cfg0.win 1).blk t).view.emb (colEntry (asColumn j) k) = wEntry k := by
      funext a; apply Fin.ext
      match a with
      | ⟨0, _⟩ => show win0_1.index t (0 : Fin 2) * 64 + 1 * k.val = k.val; omega
      | ⟨1, _⟩ => show win0_1.index t (1 : Fin 2) * 1 + 1 * 0 = 0; omega
    rw [h]
  have hb : iblk0 V c 2 t origin = V c main_v0 origin := by
    show V c main_v0 (((cfg0.win 2).blk t).view.emb origin) = _
    have h : ((cfg0.win 2).blk t).view.emb origin = origin := by
      funext a; apply Fin.ext
      match a with
      | ⟨0, _⟩ => show win0_2.index t (0 : Fin 2) * 1 + 1 * 0 = 0; omega
      | ⟨1, _⟩ => show win0_2.index t (1 : Fin 2) * 1 + 1 * 0 = 0; omega
    rw [h]
  show _ = rowExp (V c main_arg0) (V c main_arg1) (V c main_v0) (((cfg0.win 3).blk t).view.emb j)
  unfold rowExp
  simp only [hx, hw, hb]

/-- A row lies in point `t`'s output block iff its number is among the block's 8192. -/
theorem mem_block (t : Fin cfg0.N) (i : S4194304.Idx) :
    i ∈ ((cfg0.win 3).blk t).view.set ↔ ∀ a : Fin 1, win0_3.index t a * S8192.size a ≤ (i a).val ∧ (i a).val < win0_3.index t a * S8192.size a + S8192.size a := by
  show i ∈ ((View.whole main_v1).slice (win0_3.rect t)).set ↔ _
  rw [View.set_slice_whole, Rect.mem_set_unit]
  exact Iff.rfl

/-- Every row is in the block of the point numbered by the row number divided by 8192. -/
theorem covered (i : S4194304.Idx) : ∃ t : Fin cfg0.N, (cfg0.win 3).flush t = true ∧ i ∈ ((cfg0.win 3).blk t).view.set := by
  have hi : (i 0).val < 4194304 := (i 0).isLt
  have hN : cfg0.N = 512 := N_0
  obtain ⟨t, ht⟩ : ∃ t : Fin cfg0.N, t.val = (i 0).val / 8192 := ⟨⟨(i 0).val / 8192, by omega⟩, rfl⟩
  obtain ⟨-, -, -, -, -, -, e6⟩ := block_places t
  refine ⟨t, flush0_3 t, ?_⟩
  rw [mem_block]
  intro a
  match a with
  | ⟨0, _⟩ => show win0_3.index t (0 : Fin 1) * 8192 ≤ (i 0).val ∧ (i 0).val < win0_3.index t (0 : Fin 1) * 8192 + 8192; omega

/-- The region's output array when it ends: `rowExp` of `x`, the weight column and the bias as entered. -/
theorem array_after (c : Dev nD) :
    (dat0 V c).arrAt 3 cfg0.N = rowExp (V c main_arg0) (V c main_arg1) (V c main_v0) :=
  (dat0 V c).arrAt_eq_of_cover 3 _ (fun t _ => block_written V c t) covered

end Cert.KernelIdeal.LinearExp

end
-- ==== Proof.Whole.lean ====
/-
  The two-region program as one value, at the exact (extended-real) instance. The first region leaves ŷ, the per-row
  exponentials. Between the regions the host forms the total of ŷ over each stratum — a scatter-add of the 4194304
  values into 262144 zeros at the rows' stratum numbers — and reads that total back for every row — a gather at the
  stratum number, a negative number first wrapped by adding 262144: `stratumTotals`. The second region divides ŷ by
  it entry by entry, and the last host step lays the 4194304 quotients out as one column.
-/
import proofs.«427394_j32366873542997_3_alg».proof.Proof.KernelRun
import proofs.«427394_j32366873542997_3_alg».proof.Proof.Normalize
import proofs.«427394_j32366873542997_3_alg».proof.Proof.LinearExp
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- For every row, the total of `y` over the row's stratum: the host's scatter-add into zeros followed by its gather
    at the (wrapped) stratum numbers. Kept as one function of `y` and the stratum numbers; nothing opens it. -/
def stratumTotals {F : FTy → Type} [FloatOps F] (y : (⟨S4194304, .f32⟩ : BufTy).Contents (Elt F))
    (seg : (⟨S4194304, .i32⟩ : BufTy).Contents (Elt F)) : (⟨S4194304, .f32⟩ : BufTy).Contents (Elt F) :=
  Host.gather gather_S262144_S4194304x1_S4194304_n_0_n_n_0_1_1
    (Host.scatterAdd scatter_S262144_S4194304x1_S4194304_n_0_0_1
      (broadcastInDim S262144 ![] bcast_S_S262144 (constant (F := F) S_ .f32 0x00000000#32))
      (broadcastInDim S4194304x1 ![0] bcast_S4194304_S4194304x1_0 seg) y)
    (broadcastInDim S4194304x1 ![0] bcast_S4194304_S4194304x1_0
      (select (cmpi .slt seg (broadcastInDim S4194304 ![] bcast_S_S4194304 (constantI S_ 32 0#32)))
        (addi seg (broadcastInDim S4194304 ![] bcast_S_S4194304 (constantI S_ 32 262144#32))) seg))

/-- The program's result as a function of its four arguments: ŷ divided by its stratum totals, as one column. -/
def result (x : (⟨S4194304x64, .f32⟩ : BufTy).Contents (Elt Ideal)) (w : (⟨S64x1, .f32⟩ : BufTy).Contents (Elt Ideal))
    (b : (⟨S1, .f32⟩ : BufTy).Contents (Elt Ideal)) (seg : (⟨S4194304, .i32⟩ : BufTy).Contents (Elt Ideal)) :
    (⟨S4194304x1, .f32⟩ : BufTy).Contents (Elt Ideal) :=
  broadcastInDim S4194304x1 ![0] bcast_S4194304_S4194304x1_0
    (Normalize.quotient (LinearExp.rowExp x w (shapeCast S1x1 b shapeCasts_S1_S1x1))
      (stratumTotals (LinearExp.rowExp x w (shapeCast S1x1 b shapeCasts_S1_S1x1)) seg))

variable (m : (ℓ : Loc nD τ sig) → Buf (Elt Ideal) ℓ) (ρ : Dev nD → PrngReg)

/-! ## The contents at the segment boundaries -/

/-- The first region finds `x` as launched (the one host step before it writes the reshaped bias only). -/
theorem entry_x (c : Dev nD) : V1 m ρ c main_arg0 = m ((c : Thread nD τ).loc main_arg0) := by
  show StableHlo.after hostOps0 (W0 m ρ c) (Proc.devRef .tc main_arg0) = _
  after_results <;> rfl
/-- It finds the weight column as launched. -/
theorem entry_w (c : Dev nD) : V1 m ρ c main_arg1 = m ((c : Thread nD τ).loc main_arg1) := by
  show StableHlo.after hostOps0 (W0 m ρ c) (Proc.devRef .tc main_arg1) = _
  after_results <;> rfl
/-- It finds the 1×1 bias at the launched one-entry bias, reshaped. -/
theorem entry_b (c : Dev nD) :
    V1 m ρ c main_v0 = shapeCast S1x1 (m ((c : Thread nD τ).loc main_arg2)) shapeCasts_S1_S1x1 := by
  show StableHlo.after hostOps0 (W0 m ρ c) (Proc.devRef .tc main_v0) = _
  after_results <;> rfl

/-- When the first region ends its output array holds ŷ of the launched arguments. -/
theorem yhat_after (c : Dev nD) : W2 m ρ c (Proc.devRef .tc main_v1)
    = LinearExp.rowExp (m ((c : Thread nD τ).loc main_arg0)) (m ((c : Thread nD τ).loc main_arg1))
        (shapeCast S1x1 (m ((c : Thread nD τ).loc main_arg2)) shapeCasts_S1_S1x1) :=
  (W2_arr m ρ c 3).trans ((LinearExp.array_after (V1 m ρ) c).trans (by rw [entry_x, entry_w, entry_b]))

/-- The stratum numbers are still as launched when the first region ends. -/
theorem seg_after (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-- The second region finds ŷ where the first left it (no host step between them writes it), -/
theorem entry_yhat (c : Dev nD) : V3 m ρ c main_v1 = W2 m ρ c (Proc.devRef .tc main_v1) := by
  show StableHlo.after hostOps1 (W2 m ρ c) (Proc.devRef .tc main_v1) = _
  after_results <;> rfl
/-- and its second operand at the stratum totals of that ŷ. -/
theorem entry_totals (c : Dev nD) : V3 m ρ c main_v11
    = stratumTotals (W2 m ρ c (Proc.devRef .tc main_v1)) (W2 m ρ c (Proc.devRef .tc main_arg3)) := by
  show StableHlo.after hostOps1 (W2 m ρ c) (Proc.devRef .tc main_v11) = _
  after_results <;> rfl

/-- When the second region ends its output array holds the quotient of its two operands as entered. -/
theorem quotient_after (c : Dev nD) : W4 m ρ c (Proc.devRef .tc main_v12)
    = Normalize.quotient (V3 m ρ c main_v1) (V3 m ρ c main_v11) :=
  (W4_arr m ρ c 2).trans (Normalize.array_after (V3 m ρ) c)

/-- The last host step lays that array out as one column. -/
theorem column_after (c : Dev nD) : W5 m ρ c (Proc.devRef .tc main_v13)
    = broadcastInDim S4194304x1 ![0] bcast_S4194304_S4194304x1_0 (W4 m ρ c (Proc.devRef .tc main_v12)) := by
  show StableHlo.after hostOps2 (W4 m ρ c) (Proc.devRef .tc main_v13) = _
  after_results <;> rfl

/-- The result buffer's last contents are `result` of the four launched arguments. -/
theorem value (c : Dev nD) : W5 m ρ c (Proc.devRef .tc main_v13)
    = result (m ((c : Thread nD τ).loc main_arg0)) (m ((c : Thread nD τ).loc main_arg1))
        (m ((c : Thread nD τ).loc main_arg2)) (m ((c : Thread nD τ).loc main_arg3)) := by
  rw [column_after, quotient_after, entry_yhat, entry_totals, yhat_after, seg_after]
  rfl

/-! ## The run -/

/-- Every weakly fair execution terminates without a fault, the result buffer at `result` of the launched arguments and
    the arguments unchanged. -/
theorem run : θ_run defs (onTc (τ := τ) (main (F := Ideal))) ⟨m, fun _ => 0, ρ⟩ (fun r => ∀ c : Dev nD,
      r.2.mem ((c.tc : Thread nD τ).loc main_v13)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value m ρ c), (h c).2⟩) (RunValue.run_result m ρ)

end Cert.KernelIdeal.Whole

end
-- ==== Proof.RefValue.lean ====
/-
  The reference computes the same function of the four arguments. Its ŷ is the exponential of `x @ w` plus the bias
  broadcast down the rows: entry `(r, 0)` is exp (∑ₖ x[r, k] · w[k, 0] + b[0]) — the kernel's row value, the host's
  contraction being the same sum over the 64 entries and the reshaped bias the same one number. It then applies the
  very same scatter-add and gather to ŷ (read as a one-axis array) and the stratum numbers, and divides ŷ by the
  gathered totals laid out as a column. So entry `(r, 0)` of its result is ŷ[r] divided by the total of row `r`'s
  stratum, which is what the kernel's column holds there.
-/
import proofs.«427394_j32366873542997_3_alg».proof.Proof.Whole
import proofs.«427394_j32366873542997_3_alg».proof.Proof.Gen.ReferenceIdeal.Read

set_option maxRecDepth 16384

noncomputable section

namespace Cert.ReferenceIdeal.SameValue

open Idealize.ShloMosaic Idealize.ShloMosaic.TcCoe Idealize.SL.Sem
open Cert.ReferenceIdeal Cert.ReferenceIdeal.Read
open Cert.KernelIdeal.LinearExp (rowExp xEntry wEntry origin)
open Cert.KernelIdeal.Normalize (quotient)
open Cert.KernelIdeal.Whole (stratumTotals result)

variable (x0 : (⟨S4194304x64, .f32⟩ : BufTy).Contents (Elt Ideal)) (x1 : (⟨S64x1, .f32⟩ : BufTy).Contents (Elt Ideal))
  (x2 : (⟨S1, .f32⟩ : BufTy).Contents (Elt Ideal)) (x3 : (⟨S4194304, .i32⟩ : BufTy).Contents (Elt Ideal))

/-- The reshaped bias the kernel's first region reads. -/
abbrev bias2 : (⟨Cert.KernelIdeal.S1x1, .f32⟩ : BufTy).Contents (Elt Ideal) :=
  shapeCast Cert.KernelIdeal.S1x1 x2 Cert.KernelIdeal.Facts₀.shapeCasts_S1_S1x1

/-- Entry `i = (r, c)` of the reference's ŷ: the exponential of row `r`'s inner product with the weight column, plus
    the bias. -/
theorem yhat_apply (i : S4194304x1.Idx) :
    val_main_v4 (F := Ideal) x0 x1 x2 i
      = Ideal.exp ((∑ k : Fin 64, x0 (lidx_main_v0 i k) * x1 (ridx_main_v0 i k)) + x2 (idx_main_v1 (idx_main_v2 i))) := by
  rw [val_main_v4_apply, val_main_v3_apply, val_main_v0_apply, val_main_v2_apply, val_main_v1_apply]
  rfl

/-- The reference's ŷ, read as a one-axis array, is the kernel's row function of the same arguments. -/
theorem yhat_eq : val_main_v5 (F := Ideal) x0 x1 x2 = rowExp x0 x1 (bias2 x2) := by
  funext i
  rw [val_main_v5_apply, yhat_apply]
  unfold rowExp
  have hl : ∀ k : Fin 64, lidx_main_v0 (idx_main_v5 i) k = xEntry i k := fun k => funext fun a => Fin.ext (by
    match a with
    | ⟨0, _⟩ => show (i 0).val / 1 = (i 0).val; omega
    | ⟨1, _⟩ => rfl)
  have hr : ∀ k : Fin 64, ridx_main_v0 (idx_main_v5 i) k = wEntry k := fun k => funext fun a => Fin.ext (by
    match a with
    | ⟨0, _⟩ => rfl
    | ⟨1, _⟩ => rfl)
  have hb : bias2 x2 origin = x2 (idx_main_v1 (idx_main_v2 (idx_main_v5 i))) :=
    shapeCast_apply x2 _ origin _ (by rewrite [Shape.rowMajor_val_one, Shape.rowMajor_val_two]; rfl)
  simp only [hl, hr, hb]

/-- The reference's gathered totals are the kernel's `stratumTotals` of the reference's ŷ: the same host operations
    on the same operands. -/
theorem totals_eq : val_main_v15 (F := Ideal) x0 x1 x2 x3 = stratumTotals (val_main_v5 (F := Ideal) x0 x1 x2) x3 := rfl

/-- A column index `(r, 0)` is the column form of its row. -/
theorem column_index (i : S4194304x1.Idx) : idx_main_v5 (idx_main_v16 i) = i := funext fun a => Fin.ext (by
  match a with
  | ⟨0, _⟩ => show (i 0).val / 1 = (i 0).val; omega
  | ⟨1, _⟩ => show 0 = (i 1).val; have h : (i 1).val < 1 := (i 1).isLt; omega)

/-- The reference's result is the kernel's `result` of the same four arguments. -/
theorem result_eq : val_main_v17 (F := Ideal) x0 x1 x2 x3 = result x0 x1 x2 x3 := by
  funext i
  rw [val_main_v17_apply, val_main_v16_apply]
  unfold result
  rw [broadcastInDim_apply _ Cert.KernelIdeal.Facts₀.bcast_S4194304_S4194304x1_0 _ i (idx_main_v16 i) (fun a => match a with
    | ⟨0, _⟩ => by show (i 0).val = if (4194304 : Nat) = 1 then 0 else (i 0).val; rw [if_neg (by decide)])]
  rw [← yhat_eq, ← totals_eq x0 x1 x2 x3]
  have h4 : val_main_v4 (F := Ideal) x0 x1 x2 i = val_main_v5 (F := Ideal) x0 x1 x2 (idx_main_v16 i) := by
    rw [val_main_v5_apply, column_index]
  rw [h4]
  generalize val_main_v5 (F := Ideal) x0 x1 x2 = Y
  generalize val_main_v15 (F := Ideal) x0 x1 x2 x3 = T
  rfl

end Cert.ReferenceIdeal.SameValue

end
-- ==== Proof.lean ====
/-
  Stratified normalisation: for 4194304 rows `x[r, ·]` of 64 entries, a 64×1 weight column `w`, a one-entry bias `b`
  and a stratum number per row, the result's entry `(r, 0)` is
      ŷ[r] / (the sum of ŷ over the rows of r's stratum),      ŷ[r] = exp (∑ₖ x[r, k] · w[k, 0] + b[0]).
  The kernel computes ŷ in a first region of 512 blocks of 8192 rows (a block product into a zero accumulator, the
  bias added, the exponential), forms the stratum sums on the host (a scatter-add into zeros, then a gather at the
  stratum numbers), and divides in a second region of 512 blocks; the reference does all of it on the host. On
  the extended reals a change of float format is the identity, a product into a zero accumulator is the plain sum
  over the 64 contracted entries, and the two divisions are one function, so both programs are the same function
  of their arguments: the scatter-add and the gather are shared verbatim and are never opened, and no step needs the
  inputs to be finite.

  The three frames: the kernel's two (at the word-level and the exact instance) are the generated two-region frames;
  the reference's is its generated run with the result dropped. The idealisation rewrote nothing, so `preserves` is
  `True`. For `algebraic`: the kernel's run ends with its result at `Whole.result` of the launched arguments
  (Proof/Whole.lean over Proof/LinearExp.lean and Proof/Normalize.lean), the reference's generated run ends at a
  term that is that same function (Proof/RefValue.lean), and the two launch memories agree on the arguments.
-/
import proofs.«427394_j32366873542997_3_alg».proof.Defs
import proofs.«427394_j32366873542997_3_alg».proof.Proof.Gen.Kernel
import proofs.«427394_j32366873542997_3_alg».proof.Proof.Gen.Kernel.Skeleton
import proofs.«427394_j32366873542997_3_alg».proof.Proof.Gen.Kernel.Launch
import proofs.«427394_j32366873542997_3_alg».proof.Proof.Gen.Kernel.Points
import proofs.«427394_j32366873542997_3_alg».proof.Proof.Gen.Kernel.Frame
import proofs.«427394_j32366873542997_3_alg».proof.Proof.Gen.KernelIdeal
import proofs.«427394_j32366873542997_3_alg».proof.Proof.Gen.KernelIdeal.Skeleton
import proofs.«427394_j32366873542997_3_alg».proof.Proof.Gen.KernelIdeal.Launch
import proofs.«427394_j32366873542997_3_alg».proof.Proof.Gen.KernelIdeal.Points
import proofs.«427394_j32366873542997_3_alg».proof.Proof.Gen.KernelIdeal.Frame
import proofs.«427394_j32366873542997_3_alg».proof.Proof.Gen.ReferenceIdeal
import proofs.«427394_j32366873542997_3_alg».proof.Proof.Gen.ReferenceIdeal.Run
import proofs.«427394_j32366873542997_3_alg».proof.Proof.Gen.ReferenceIdeal.Read
import proofs.«427394_j32366873542997_3_alg».proof.Proof.Gen.Pre_finite_inputs
import proofs.«427394_j32366873542997_3_alg».proof.Proof.Whole
import proofs.«427394_j32366873542997_3_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the four arguments both programs end with their result at one and the same function
    of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.SameValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
